-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4x4 : Shape := ⟨2, ![4, 4]⟩
abbrev S_ : Shape := ⟨0, ![]⟩

class Facts : Prop where
  bcast_S_S4x4 : S_.BroadcastsInDim S4x4 (![] : Fin 0 → Fin S4x4.rank)
  reducesTo_S4x4_S_d0_1 : S4x4.ReducesTo [0, 1] S_
  h_S_ : 0 < S_.numel

variable [Facts]

def fn {F : FTy → Type} [FloatOps F] (main_arg0 : IVec S4096 32) (main_arg1 : FVec F S4x4 .f32) : IVec S_ 1 :=
  let main_v0 : FVec F S4x4 .f32 := Host.absf main_arg1
  let main_cst : FVec F S_ .f32 := constant S_ .f32 0x7F800000#32
  let main_v1 : FVec F S4x4 .f32 := broadcastInDim S4x4 ![] bcast_S_S4x4 main_cst
  let main_v2 : IVec S4x4 1 := cmpf .olt main_v0 main_v1
  let main_c : IVec S_ 1 := constantI S_ 1 1#1
  let main_v3 : IVec S_ 1 := (fun x v => Host.reduce IntOp.andi x v reducesTo_S4x4_S_d0_1 h_S_) main_v2 main_c
  main_v3
-- ==== Kernel.lean ====
abbrev S4096 : Shape := ⟨1, ![4096]⟩
abbrev S4x4 : Shape := ⟨2, ![4, 4]⟩
abbrev S_ : Shape := ⟨0, ![]⟩
abbrev S4096x1 : Shape := ⟨2, ![4096, 1]⟩
abbrev S4096x4 : Shape := ⟨2, ![4096, 4]⟩
abbrev S8x4096x4096 : Shape := ⟨3, ![8, 4096, 4096]⟩
abbrev S256x4 : Shape := ⟨2, ![256, 4]⟩
abbrev S512x4 : Shape := ⟨2, ![512, 4]⟩
abbrev S8x256x512 : Shape := ⟨3, ![8, 256, 512]⟩
abbrev S4x256 : Shape := ⟨2, ![4, 256]⟩
abbrev S4x512 : Shape := ⟨2, ![4, 512]⟩
abbrev S4x256x1 : Shape := ⟨3, ![4, 256, 1]⟩
abbrev S4x256x512 : Shape := ⟨3, ![4, 256, 512]⟩
abbrev S4x1x512 : Shape := ⟨3, ![4, 1, 512]⟩
abbrev S1x8x4096x4096 : Shape := ⟨4, ![1, 8, 4096, 4096]⟩

abbrev nBuf : Space → Nat
  | .hbm => 13
  | .vmem => 6
  | .smem => 0
  | _ => 0

abbrev bufTy : (tb : Table) → Fin (tcTables nBuf tb) → BufTy
  | .hbm, ⟨0, _⟩ => ⟨S4096, .i32⟩
  | .hbm, ⟨1, _⟩ => ⟨S4x4, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x4, .f32⟩
  | .hbm, ⟨11, _⟩ => ⟨S8x4096x4096, .f32⟩
  | .hbm, ⟨12, _⟩ => ⟨S1x8x4096x4096, .f32⟩
  | .local _ .vmem, ⟨0, _⟩ => ⟨S256x4, .f32⟩
  | .local _ .vmem, ⟨1, _⟩ => ⟨S256x4, .f32⟩
  | .local _ .vmem, ⟨2, _⟩ => ⟨S512x4, .f32⟩
  | .local _ .vmem, ⟨3, _⟩ => ⟨S512x4, .f32⟩
  | .local _ .vmem, ⟨4, _⟩ => ⟨S8x256x512, .f32⟩
  | .local _ .vmem, ⟨5, _⟩ => ⟨S8x256x512, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S512x4_S512x4_0_0 : ∀ a, (![0, 0] : Fin 2 → Nat) a + S512x4.size a ≤ S512x4.size a
  h_S512x4 : 0 < S512x4.numel
  shapeCasts_S512x4_S512x4 : S512x4.ShapeCasts S512x4
  transposes_S256x4_p1_0_S4x256 : S256x4.Transposes [1, 0] S4x256
  transposes_S512x4_p1_0_S4x512 : S512x4.Transposes [1, 0] S4x512
  shapeCasts_S4x256_S4x256x1 : S4x256.ShapeCasts S4x256x1
  shapeCasts_S4x256x1_S4x256x1 : S4x256x1.ShapeCasts S4x256x1
  broadcasts_S4x256x1_S4x256x512 : S4x256x1.Broadcasts S4x256x512
  shapeCasts_S4x512_S4x1x512 : S4x512.ShapeCasts S4x1x512
  shapeCasts_S4x1x512_S4x1x512 : S4x1x512.ShapeCasts S4x1x512
  broadcasts_S4x1x512_S4x256x512 : S4x1x512.Broadcasts S4x256x512
  inb_S8x256x512_S4x256x512_0_0_0 : ∀ a, (![0, 0, 0] : Fin 3 → Nat) a + S4x256x512.size a ≤ S8x256x512.size a
  h_S4x256x512 : 0 < S4x256x512.numel
  inb_S8x256x512_S4x256x512_4_0_0 : ∀ a, (![4, 0, 0] : Fin 3 → Nat) a + S4x256x512.size a ≤ S8x256x512.size a
  bcast_S8x4096x4096_S1x8x4096x4096_1_2_3 : S8x4096x4096.BroadcastsInDim S1x8x4096x4096 (![1, 2, 3] : Fin 3 → Fin S1x8x4096x4096.rank)
  gather_S4x4_S4096x1_S4096x4_1_0_n_n_0_1_14_wf : GatherDims.WF S4x4 S4096x1 S4096x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4.size a ≤ S4096x4.size a
  hwx0_0 : ∀ i : grid0.Coords, EltTy.bits .f32 = 32 ∨ (Rect.block (s := S4096x4) S256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S4096x4.size a
  hwx0_1 : ∀ i : grid0.Coords, EltTy.bits .f32 = 32 ∨ (Rect.block (s := S4096x4) S512x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S8x4096x4096.size a
  hwx0_2 : ∀ i : grid0.Coords, EltTy.bits .f32 = 32 ∨ (Rect.block (s := S8x4096x4096) S8x256x512.size (cc0_transform_2 i) (hinb0_2 i)).WholeWords (EltTy.packing .f32)

variable [Facts₀]

def gather_S4x4_S4096x1_S4096x4_1_0_n_n_0_1_14 : GatherDims S4x4 S4096x1 S4096x4 where
  offsetDims := [1]
  collapsedSliceDims := [0]
  operandBatchingDims := []
  startIndicesBatchingDims := []
  startIndexMap := [0]
  indexVectorDim := 1
  sliceSizes := ![1, 4]
  wf := gather_S4x4_S4096x1_S4096x4_1_0_n_n_0_1_14_wf

abbrev win0_0 : Pipeline.Window sig grid0 :=
  Pipeline.Window.ofSpec (Memref.whole main_v6) S256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S8x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096 : Shape := ⟨1, ![4096]⟩
abbrev S4x4 : Shape := ⟨2, ![4, 4]⟩
abbrev S_ : Shape := ⟨0, ![]⟩
abbrev S4096x1 : Shape := ⟨2, ![4096, 1]⟩
abbrev S4096x4 : Shape := ⟨2, ![4096, 4]⟩
abbrev S4096x1x4 : Shape := ⟨3, ![4096, 1, 4]⟩
abbrev S4096x4096x4 : Shape := ⟨3, ![4096, 4096, 4]⟩
abbrev S1x4096x4 : Shape := ⟨3, ![1, 4096, 4]⟩
abbrev S4096x4096x8 : Shape := ⟨3, ![4096, 4096, 8]⟩
abbrev S8x4096x4096 : Shape := ⟨3, ![8, 4096, 4096]⟩
abbrev S1x8x4096x4096 : Shape := ⟨4, ![1, 8, 4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4x4, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x4, .f32⟩
  | .hbm, ⟨11, _⟩ => ⟨S4096x1x4, .f32⟩
  | .hbm, ⟨12, _⟩ => ⟨S4096x4096x4, .f32⟩
  | .hbm, ⟨13, _⟩ => ⟨S1x4096x4, .f32⟩
  | .hbm, ⟨14, _⟩ => ⟨S4096x4096x4, .f32⟩
  | .hbm, ⟨15, _⟩ => ⟨S4096x4096x8, .f32⟩
  | .hbm, ⟨16, _⟩ => ⟨S8x4096x4096, .f32⟩
  | .hbm, ⟨17, _⟩ => ⟨S1x8x4096x4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x4_S4096x1x4_0_2 : S4096x4.BroadcastsInDim S4096x1x4 (![0, 2] : Fin 2 → Fin S4096x1x4.rank)
  bcast_S4096x1x4_S4096x4096x4_0_1_2 : S4096x1x4.BroadcastsInDim S4096x4096x4 (![0, 1, 2] : Fin 3 → Fin S4096x4096x4.rank)
  bcast_S4096x4_S1x4096x4_1_2 : S4096x4.BroadcastsInDim S1x4096x4 (![1, 2] : Fin 2 → Fin S1x4096x4.rank)
  bcast_S1x4096x4_S4096x4096x4_0_1_2 : S1x4096x4.BroadcastsInDim S4096x4096x4 (![0, 1, 2] : Fin 3 → Fin S4096x4096x4.rank)
  concatenates_S4096x4096x4_S4096x4096x4_S4096x4096x8_d2 : Shape.Concatenates [S4096x4096x4, S4096x4096x4] S4096x4096x8 2
  transposes_S4096x4096x8_S8x4096x4096_2_0_1 : S4096x4096x8.Transposes [2, 0, 1] S8x4096x4096
  bcast_S8x4096x4096_S1x8x4096x4096_1_2_3 : S8x4096x4096.BroadcastsInDim S1x8x4096x4096 (![1, 2, 3] : Fin 3 → Fin S1x8x4096x4096.rank)
  gather_S4x4_S4096x1_S4096x4_1_0_n_n_0_1_14_wf : GatherDims.WF S4x4 S4096x1 S4096x4 [1] [0] [] [0] [] 1 ![1, 4]

variable [Facts₀]

def gather_S4x4_S4096x1_S4096x4_1_0_n_n_0_1_14 : GatherDims S4x4 S4096x1 S4096x4 where
  offsetDims := [1]
  collapsedSliceDims := [0]
  operandBatchingDims := []
  startIndicesBatchingDims := []
  startIndexMap := [0]
  indexVectorDim := 1
  sliceSizes := ![1, 4]
  wf := gather_S4x4_S4096x1_S4096x4_1_0_n_n_0_1_14_wf

class Facts : Prop extends Facts₀ where

variable [Facts]
-- ==== Proof.KBody.lean ====
/-
  The body side of `Kernel`'s frame. The one pallas_call runs on a 16 × 8 grid; at grid point (i, j) it is
  handed rows 256·i … 256·i+255 of the gathered table `one_hot` (window 0), rows 512·j … 512·j+511 of the SAME
  table (window 1), and an 8 × 256 × 512 output block (window 2). The body transposes each input block,
  broadcasts the first along the last axis and the second along the middle axis, and stores them into channels
  0–3 and 4–7 of the output block: two stores whose rectangles tile the block.

  Here: the table as the region finds it (the host operations before the call applied to the launch memory),
  each window's block at a point, the output block as the canonical value of the two stores, the body's triple,
  and the pipeline's proof data. The two input windows read ONE array, so each holds half of its share.
-/
import proofs.«149057_j30923764532139_1_alg».proof.Proof.Gen.Kernel.Launch
import proofs.«149057_j30923764532139_1_alg».proof.Proof.Gen.Kernel.Skeleton
import proofs.«149057_j30923764532139_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the nine host operations before the call (the index chain and the gather). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or kept from the point before
    (window 0 is fetched only when the row block changes; between fetches the body leaves it in place). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 256 × 4 row block, the whole 512 × 4 row block, -/
abbrev rRow : Rect S256x4 := Rect.unit (s := S256x4) ![0, 0] S256x4.size inb_S256x4_S256x4_0_0
abbrev rCol : Rect S512x4 := Rect.unit (s := S512x4) ![0, 0] S512x4.size inb_S512x4_S512x4_0_0
/-- channels 0–3 and channels 4–7 of the output block. -/
abbrev rLo : Rect S8x256x512 := Rect.unit (s := S8x256x512) ![0, 0, 0] S4x256x512.size inb_S8x256x512_S4x256x512_0_0_0
abbrev rHi : Rect S8x256x512 := Rect.unit (s := S8x256x512) ![4, 0, 0] S4x256x512.size inb_S8x256x512_S4x256x512_4_0_0

/-! ## What the body leaves in the output block -/

/-- The output block after the body, from the two input blocks: the row part into channels 0–3, then the column
    part into channels 4–7 (the later store listed first). -/
def outBlk (x0 : Vec F S256x4 .f32) (x1 : Vec F S512x4 .f32) : Vec F S8x256x512 .f32 :=
  View.canon [⟨rHi, k0_pay2 (View.ld x1 rCol)⟩,
    ⟨rLo, k0_pay1 (View.ld x0 rRow)⟩]

/-- The two half-blocks tile the output block, so every index lies in one of them. -/
theorem outBlk_cover (p0 : Vec F S4x256x512 .f32) (p1 : Vec F S4x256x512 .f32) (y : S8x256x512.Idx) :
    ∃ pc ∈ ([⟨rHi, p0⟩, ⟨rLo, p1⟩] : List (View.Piece (Elt F) S8x256x512 .f32)), y ∈ pc.1.set :=
  View.cover_of_tiled [⟨rHi, p0⟩, ⟨rLo, p1⟩] S4x256x512.size (by rfl) y

/-! ## The body's triple -/

set_option maxHeartbeats 1000000 in
/-- The body on whole staging buffers — the inputs' at `x0`, `x1`, the output's at anything — runs to the
    continuation holding the inputs as they were and the output at `outBlk x0 x1`. -/
theorem sound_kernel (c : Dev nD) (E : Set ℕ) (i : grid0.Coords) (arg2 : Memref sig .tc .vmem S256x4 .f32) (harg2 : arg2.IsWhole)
    (arg3 : Memref sig .tc .vmem S512x4 .f32) (harg3 : arg3.IsWhole) (arg4 : Memref sig .tc .vmem S8x256x512 .f32) (harg4 : arg4.IsWhole)
    (x0 : Vec F S256x4 .f32) (x1 : Vec F S512x4 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__seq_embed_kernel i arg2 harg2 arg3 harg3 arg4 harg4) K := by
  simp only [cc0__seq_embed_kernel_eq_skeleton]; unfold cc0__seq_embed_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlk_cover _ _)

/-! ## The pipeline's proof data -/

/-- The proof data of the pipeline on core `c`: the arrays as the region finds them; after the body at point `t`
    each input's buffer at its block and the output's at `outBlk` of the two; the invariant only the scoped
    buffers no window stages; nothing owed. Windows 0 and 1 read the same array: each holds HALF of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-- The shares: half each for the two readers of the table, all of the output array. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.KLaunch.lean ====
/-
  The launch of `Kernel`: @main is nine host operations (the index chain and the gather that make the table
  `one_hot`), the one pallas_call, and one host operation after it (a leading unit axis on the result).

  The two input windows of the call read the SAME array, the table. The region is therefore entered holding the
  table's full share split in two halves, one per window; nothing writes the table, and each half comes back
  unchanged. The output array is held whole. The host operation after the region reads the output array and writes
  a fresh buffer; the argument arrays bypass the region untouched.
-/
import proofs.«149057_j30923764532139_1_alg».proof.Proof.KBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the host operation after it, entered at the contents the nine host
    operations before it leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' arrays, and the table's share split between its two readers -/

/-- The pipeline's arrays at contents `Fw`: the table's left half-share for window 0, its right half-share for
    window 1, the output array whole for window 2. -/
theorem arrays_eq3 (c : Dev nD) (Fw : (w : Fin cfg0.W) → Buf (Elt F) ((cfg0.win w).arr.view.loc (c.tc : Thread nD τ))) :
    ((dats m 0 c).arrays Fw : sProp 𝕄)
      = iprop((((c.tc : Thread nD τ).loc main_v6) ↦{fullShare.left} Fw 0) ∗ (((c.tc : Thread nD τ).loc main_v6) ↦{fullShare.right} Fw 1)
          ∗ (((c.tc : Thread nD τ).loc main_v7) ↦{fullShare} Fw 2)) := by
  unfold Dat.arrays
  rw [bigSep_W0, (arr_whole0 0).set_eq_univ, (arr_whole0 2).set_eq_univ]
  rfl

/-- The distinct buffers behind the windows' arrays are the table and the output array. -/
theorem arrImage : (Finset.univ.image (Pipeline.arrRef spec0) : Finset (Ref sig .tc)) = {main_v6, main_v7} := by decide

/-- ENTRY: the table whole and the output array whole make the pipeline's arrays, the table's share halved. -/
theorem entry_split (c : Dev nD) :
    (Pipeline.arrBufs spec0 c (V m c) : sProp 𝕄) ⊢ (dats m 0 c).arrays ((dats m 0 c).arrAt · 0) := by
  rw [arrays_eq3]
  unfold Pipeline.arrBufs
  rw [arrImage, bigSep_insert (by decide : main_v6 ∉ ({main_v7} : Finset (Ref sig .tc))), bigSep_singleton]
  refine (show iprop((((c.tc : Thread nD τ).loc main_v6) ↦{fullShare} V m c main_v6) ∗ (((c.tc : Thread nD τ).loc main_v7) ↦{fullShare} V m c main_v7)) ⊢ _ from ?_)
  iintro ⟨H6, H7⟩
  ihave H6 := (pointsTo_share (PosShare.mem_left_op_right fullShare)).1 $$ H6
  icases H6 with ⟨H6l, H6r⟩
  isplitl [H6l]; · iexact H6l
  isplitl [H6r]; · iexact H6r
  iexact H7

/-! ## The host operation after the region -/

/-- The buffers when the region is left: as it was entered, but the output array at its final contents. -/
def Wexit (c : Dev nD) : Valuation τ sig (Elt F) :=
  Function.update (V0 m c) (Proc.devRef .tc main_v7) ((dats m 0 c).arrAt 2 cfg0.N)

/-- The buffers when @main returns: the one host operation after the region applied. -/
def Wend (c : Dev nD) : Valuation τ sig (Elt F) := StableHlo.after hostOps1 (Wexit m c)

/-- That operation writes the result buffer only: every other buffer but the output array is as the region found it, -/
theorem Wend_of_ne (c : Dev nD) (r : Ref sig .tc) (h8 : r ≠ main_v8) (h7 : r ≠ main_v7) :
    Wend m c (Proc.devRef .tc r) = V m c r := by
  simp only [Wend, hostOps1, StableHlo.after_cons, StableHlo.after_nil]
  rw [StableHlo.unary_result_ne (h := h8)]
  unfold Wexit
  rw [Function.update_of_ne (StableHlo.devRef_ne_of_ne h7)]

/-- the output array is as the region left it, -/
theorem Wend_v7 (c : Dev nD) : Wend m c (Proc.devRef .tc main_v7) = (dats m 0 c).arrAt 2 cfg0.N := by
  simp only [Wend, hostOps1, StableHlo.after_cons, StableHlo.after_nil]
  rw [StableHlo.unary_result_ne (h := (by decide : main_v7 ≠ main_v8))]
  unfold Wexit
  rw [Function.update_self]

/-- and the result is the output array with a leading unit axis. -/
theorem Wend_v8 (c : Dev nD) : Wend m c (Proc.devRef .tc main_v8)
    = broadcastInDim S1x8x4096x4096 ![1, 2, 3] bcast_S8x4096x4096_S1x8x4096x4096_1_2_3 ((dats m 0 c).arrAt 2 cfg0.N) := by
  simp only [Wend, hostOps1, StableHlo.after_cons, StableHlo.after_nil]
  rw [StableHlo.unary_result']
  unfold Wexit
  rw [Function.update_self]

/-- What is read at the end beside the pipeline's arrays: the two argument arrays and the result. -/
abbrev endRefs : Finset (Ref sig .tc) := {main_arg0, main_arg1, main_v8}

/-- Those three buffers, whole, at their contents when @main returns. -/
def Zend (c : Dev nD) : sProp 𝕄 :=
  bigSep endRefs fun b => ((c.tc : Thread nD τ).loc b) ↦{fullShare} Wend m c (Proc.devRef .tc b)

/-- One by one: the argument arrays as the region found them, the result as the host operation leaves it. -/
theorem Zend_eq (c : Dev nD) : (Zend m c : sProp 𝕄)
    = iprop((((c.tc : Thread nD τ).loc main_arg0) ↦{fullShare} V m c main_arg0) ∗ (((c.tc : Thread nD τ).loc main_arg1) ↦{fullShare} V m c main_arg1)
        ∗ (((c.tc : Thread nD τ).loc main_v8) ↦{fullShare} Wend m c (Proc.devRef .tc main_v8))) := by
  unfold Zend
  rw [bigSep_insert (by decide : main_arg0 ∉ ({main_arg1, main_v8} : Finset (Ref sig .tc))),
    bigSep_insert (by decide : main_arg1 ∉ ({main_v8} : Finset (Ref sig .tc))), bigSep_singleton,
    Wend_of_ne m c main_arg0 (by decide) (by decide), Wend_of_ne m c main_arg1 (by decide) (by decide)]
  rfl

/-- The host operation after the region touches the output array and the result buffer only. -/
abbrev tailRefs2 : Finset (DevRef τ sig) := {Proc.devRef .tc main_v7, Proc.devRef .tc main_v8}

theorem tail_sub : ∀ ops ∈ ([hostOps1] : List (List (HloOp τ sig (Elt F)))), ∀ op ∈ ops, op.bufs ⊆ tailRefs2 := by
  intro ops hops op hop
  simp only [List.mem_cons, List.mem_nil_iff, or_false] at hops
  subst hops
  simp only [hostOps1, List.mem_cons, List.mem_nil_iff, or_false] at hop
  subst hop
  intro b hb
  exact hb

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

-- a rule stated for any thread, applied at the TensorCore thread
set_option backward.isDefEq.respectTransparency.types false in
/-- THE LINE AFTER THE REGION: from the region's exit — the arrays at their final contents, the bypassing buffers
    as the region found them — the host operation runs holding the output array and the result buffer, and hands
    back the arrays as they were and the three buffers read at the end. -/
theorem tail_run (𝒱₀ : Variants) (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  have hW : (StableHlo.held (c.tc : Thread nD τ) tailRefs2 (Wexit m c) : sProp 𝕄)
      = iprop((((c.tc : Thread nD τ).loc main_v7) ↦{fullShare} (dats m 0 c).arrAt 2 cfg0.N)
          ∗ (((c.tc : Thread nD τ).loc main_v8) ↦{fullShare} V m c main_v8)) := by
    unfold StableHlo.held
    rw [bigSep_insert (by decide : (Proc.devRef .tc main_v7 : DevRef τ sig) ∉ ({Proc.devRef .tc main_v8} : Finset (DevRef τ sig))), bigSep_singleton]
    unfold Wexit
    rw [Function.update_self, Function.update_of_ne (by decide : (Proc.devRef .tc main_v8 : DevRef τ sig) ≠ Proc.devRef .tc main_v7)]
    rfl
  have hW' : (StableHlo.held (c.tc : Thread nD τ) tailRefs2 (StableHlo.after ([hostOps1] : List (List (HloOp τ sig (Elt F)))).flatten (Wexit m c)) : sProp 𝕄)
      = iprop((((c.tc : Thread nD τ).loc main_v7) ↦{fullShare} (dats m 0 c).arrAt 2 cfg0.N)
          ∗ (((c.tc : Thread nD τ).loc main_v8) ↦{fullShare} Wend m c (Proc.devRef .tc main_v8))) := by
    unfold StableHlo.held
    rw [bigSep_insert (by decide : (Proc.devRef .tc main_v7 : DevRef τ sig) ∉ ({Proc.devRef .tc main_v8} : Finset (DevRef τ sig))), bigSep_singleton]
    rw [show StableHlo.after ([hostOps1] : List (List (HloOp τ sig (Elt F)))).flatten (Wexit m c) = Wend m c from rfl, Wend_v7]
    rfl
  rw [arrays_eq3, unscopedRest0_eq, Zend_eq, show Pipeline.chain [StableHlo.seq (hostOps1 (F := F))]
      = Pipeline.chain (([hostOps1] : List (List (HloOp τ sig (Elt F)))).map StableHlo.seq ++ []) from rfl]
  iintro ⟨Hk, Hb, ⟨H6l, H6r, H7⟩, Ha0, Ha1, -, -, -, -, -, -, -, -, Hv8⟩
  iapply (Pipeline.wp_seqs_then (fun q => Cfg.toPCfg (Val := Elt F) (cfgs q)) defs₀ 𝒱₀ c tailRefs2 [] [hostOps1] tail_sub tail_fresh (Wexit m c)) $$ [Hb H7 Hv8]
  · rw [hW]
    isplitl [Hb]; · iexact Hb
    isplitl [H7]; · iexact H7
    iexact Hv8
  iintro Hb
  rw [Pipeline.chain_nil, wp_pure, hW']
  imodintro
  iapply Hk
  icases Hb with ⟨-, H7, Hv8⟩
  isplitl [H6l H6r H7]
  · isplitl [H6l]; · iexact H6l
    isplitl [H6r]; · iexact H6r
    iexact H7
  isplitl [Ha0]; · iexact Ha0
  isplitl [Ha1]; · iexact Ha1
  iexact Hv8

/-! ## The run -/

/-- What every final state satisfies: each array of the pipeline at what the write-backs of all 128 points leave,
    and the two argument arrays and the result at their contents when @main returns. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ endRefs, r.2.mem ((c.tc : Thread nD τ).loc b) = Wend m c (Proc.devRef .tc b)

set_option backward.isDefEq.respectTransparency.types false in
/-- From any memory with zero counters every weakly fair execution of @main terminates, without a fault, in a
    state satisfying `RunPost`. -/
theorem run_main : θ_run defs (onTc (τ := τ) (main (F := F))) (s₀ m ρ) (RunPost m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := entry_split m) (hpf := fun _ k => k.elim0)
    (X := fun _ => iprop(emp)) (Y := fun _ => iprop(emp)) (Z := fun c => Pipeline.unscopedRest spec0 c (V m c)) (Z' := Zend m)
    (hX := fun c => by
      rw [Pipeline.unscopedRestP_none]
      iintro H; isplitr; · iempintro
      iexact H)
    (hin := fun c => (show _ ⊢ Pipeline.scopedRest spec0 c from by
      iintro ⟨-, -, H⟩; iexact H))
    (hout := fun c => (show Pipeline.scopedRest spec0 c ⊢ iprop(emp ∗ Pipeline.scopedRest spec0 c) from by
      iintro H; isplitr; · iempintro
      iexact H))
    (htail := fun c Q' => tail_run m Variants.none c Q')
    (QY := fun c s => ∀ b ∈ endRefs, s.mem ((c.tc : Thread nD τ).loc b) = Wend m c (Proc.devRef .tc b))
    (hY := fun c s' => by
      unfold Zend
      iintro ⟨-, HZ, HSI⟩
      imodintro
      iapply (pointsTo_read_all endRefs (fun b => (c.tc : Thread nD τ).loc b) (fun b => Wend m c (Proc.devRef .tc b)) s')
      isplitl [HZ] <;> iassumption)
    (hQ := fun s h c => ⟨(h c).1, (h c).2.2⟩)

/-! ## The frame -/

/-- No host operation before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- THE FRAME: every weakly fair execution of @main terminates, nothing faults, and the two argument arrays end as
    launched — they bypass the region, and neither the host operations before it nor the one after it writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans ((Wend_of_ne m c main_arg0 (by decide) (by decide)).trans (V_main_arg0 m c)),
     ((h c).2 main_arg1 (by decide)).trans ((Wend_of_ne m c main_arg1 (by decide) (by decide)).trans (V_main_arg1 m c))⟩) (run_main m ρ)

end Cert.Kernel.Frm

end
-- ==== Proof.KiBody.lean ====
/-
  The body side of `KernelIdeal`'s frame. The one pallas_call runs on a 16 × 8 grid; at grid point (i, j) it is
  handed rows 256·i … 256·i+255 of the gathered table `one_hot` (window 0), rows 512·j … 512·j+511 of the SAME
  table (window 1), and an 8 × 256 × 512 output block (window 2). The body transposes each input block,
  broadcasts the first along the last axis and the second along the middle axis, and stores them into channels
  0–3 and 4–7 of the output block: two stores whose rectangles tile the block.

  Here: the table as the region finds it (the host operations before the call applied to the launch memory),
  each window's block at a point, the output block as the canonical value of the two stores, the body's triple,
  and the pipeline's proof data. The two input windows read ONE array, so each holds half of its share.
-/
import proofs.«149057_j30923764532139_1_alg».proof.Proof.Gen.KernelIdeal.Launch
import proofs.«149057_j30923764532139_1_alg».proof.Proof.Gen.KernelIdeal.Skeleton
import proofs.«149057_j30923764532139_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the nine host operations before the call (the index chain and the gather). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or kept from the point before
    (window 0 is fetched only when the row block changes; between fetches the body leaves it in place). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 256 × 4 row block, the whole 512 × 4 row block, -/
abbrev rRow : Rect S256x4 := Rect.unit (s := S256x4) ![0, 0] S256x4.size inb_S256x4_S256x4_0_0
abbrev rCol : Rect S512x4 := Rect.unit (s := S512x4) ![0, 0] S512x4.size inb_S512x4_S512x4_0_0
/-- channels 0–3 and channels 4–7 of the output block. -/
abbrev rLo : Rect S8x256x512 := Rect.unit (s := S8x256x512) ![0, 0, 0] S4x256x512.size inb_S8x256x512_S4x256x512_0_0_0
abbrev rHi : Rect S8x256x512 := Rect.unit (s := S8x256x512) ![4, 0, 0] S4x256x512.size inb_S8x256x512_S4x256x512_4_0_0

/-! ## What the body leaves in the output block -/

/-- The output block after the body, from the two input blocks: the row part into channels 0–3, then the column
    part into channels 4–7 (the later store listed first). -/
def outBlk (x0 : Vec F S256x4 .f32) (x1 : Vec F S512x4 .f32) : Vec F S8x256x512 .f32 :=
  View.canon [⟨rHi, k0_pay2 (View.ld x1 rCol)⟩,
    ⟨rLo, k0_pay1 (View.ld x0 rRow)⟩]

/-- The two half-blocks tile the output block, so every index lies in one of them. -/
theorem outBlk_cover (p0 : Vec F S4x256x512 .f32) (p1 : Vec F S4x256x512 .f32) (y : S8x256x512.Idx) :
    ∃ pc ∈ ([⟨rHi, p0⟩, ⟨rLo, p1⟩] : List (View.Piece (Elt F) S8x256x512 .f32)), y ∈ pc.1.set :=
  View.cover_of_tiled [⟨rHi, p0⟩, ⟨rLo, p1⟩] S4x256x512.size (by rfl) y

/-! ## The body's triple -/

set_option maxHeartbeats 1000000 in
/-- The body on whole staging buffers — the inputs' at `x0`, `x1`, the output's at anything — runs to the
    continuation holding the inputs as they were and the output at `outBlk x0 x1`. -/
theorem sound_kernel (c : Dev nD) (E : Set ℕ) (i : grid0.Coords) (arg2 : Memref sig .tc .vmem S256x4 .f32) (harg2 : arg2.IsWhole)
    (arg3 : Memref sig .tc .vmem S512x4 .f32) (harg3 : arg3.IsWhole) (arg4 : Memref sig .tc .vmem S8x256x512 .f32) (harg4 : arg4.IsWhole)
    (x0 : Vec F S256x4 .f32) (x1 : Vec F S512x4 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__seq_embed_kernel i arg2 harg2 arg3 harg3 arg4 harg4) K := by
  simp only [cc0__seq_embed_kernel_eq_skeleton]; unfold cc0__seq_embed_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outBlk_cover _ _)

/-! ## The pipeline's proof data -/

/-- The proof data of the pipeline on core `c`: the arrays as the region finds them; after the body at point `t`
    each input's buffer at its block and the output's at `outBlk` of the two; the invariant only the scoped
    buffers no window stages; nothing owed. Windows 0 and 1 read the same array: each holds HALF of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outBlk (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-- The shares: half each for the two readers of the table, all of the output array. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KiLaunch.lean ====
/-
  The launch of `KernelIdeal`: @main is nine host operations (the index chain and the gather that make the table
  `one_hot`), the one pallas_call, and one host operation after it (a leading unit axis on the result).

  The two input windows of the call read the SAME array, the table. The region is therefore entered holding the
  table's full share split in two halves, one per window; nothing writes the table, and each half comes back
  unchanged. The output array is held whole. The host operation after the region reads the output array and writes
  a fresh buffer; the argument arrays bypass the region untouched.
-/
import proofs.«149057_j30923764532139_1_alg».proof.Proof.KiBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the host operation after it, entered at the contents the nine host
    operations before it leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' arrays, and the table's share split between its two readers -/

/-- The pipeline's arrays at contents `Fw`: the table's left half-share for window 0, its right half-share for
    window 1, the output array whole for window 2. -/
theorem arrays_eq3 (c : Dev nD) (Fw : (w : Fin cfg0.W) → Buf (Elt F) ((cfg0.win w).arr.view.loc (c.tc : Thread nD τ))) :
    ((dats m 0 c).arrays Fw : sProp 𝕄)
      = iprop((((c.tc : Thread nD τ).loc main_v6) ↦{fullShare.left} Fw 0) ∗ (((c.tc : Thread nD τ).loc main_v6) ↦{fullShare.right} Fw 1)
          ∗ (((c.tc : Thread nD τ).loc main_v7) ↦{fullShare} Fw 2)) := by
  unfold Dat.arrays
  rw [bigSep_W0, (arr_whole0 0).set_eq_univ, (arr_whole0 2).set_eq_univ]
  rfl

/-- The distinct buffers behind the windows' arrays are the table and the output array. -/
theorem arrImage : (Finset.univ.image (Pipeline.arrRef spec0) : Finset (Ref sig .tc)) = {main_v6, main_v7} := by decide

/-- ENTRY: the table whole and the output array whole make the pipeline's arrays, the table's share halved. -/
theorem entry_split (c : Dev nD) :
    (Pipeline.arrBufs spec0 c (V m c) : sProp 𝕄) ⊢ (dats m 0 c).arrays ((dats m 0 c).arrAt · 0) := by
  rw [arrays_eq3]
  unfold Pipeline.arrBufs
  rw [arrImage, bigSep_insert (by decide : main_v6 ∉ ({main_v7} : Finset (Ref sig .tc))), bigSep_singleton]
  refine (show iprop((((c.tc : Thread nD τ).loc main_v6) ↦{fullShare} V m c main_v6) ∗ (((c.tc : Thread nD τ).loc main_v7) ↦{fullShare} V m c main_v7)) ⊢ _ from ?_)
  iintro ⟨H6, H7⟩
  ihave H6 := (pointsTo_share (PosShare.mem_left_op_right fullShare)).1 $$ H6
  icases H6 with ⟨H6l, H6r⟩
  isplitl [H6l]; · iexact H6l
  isplitl [H6r]; · iexact H6r
  iexact H7

/-! ## The host operation after the region -/

/-- The buffers when the region is left: as it was entered, but the output array at its final contents. -/
def Wexit (c : Dev nD) : Valuation τ sig (Elt F) :=
  Function.update (V0 m c) (Proc.devRef .tc main_v7) ((dats m 0 c).arrAt 2 cfg0.N)

/-- The buffers when @main returns: the one host operation after the region applied. -/
def Wend (c : Dev nD) : Valuation τ sig (Elt F) := StableHlo.after hostOps1 (Wexit m c)

/-- That operation writes the result buffer only: every other buffer but the output array is as the region found it, -/
theorem Wend_of_ne (c : Dev nD) (r : Ref sig .tc) (h8 : r ≠ main_v8) (h7 : r ≠ main_v7) :
    Wend m c (Proc.devRef .tc r) = V m c r := by
  simp only [Wend, hostOps1, StableHlo.after_cons, StableHlo.after_nil]
  rw [StableHlo.unary_result_ne (h := h8)]
  unfold Wexit
  rw [Function.update_of_ne (StableHlo.devRef_ne_of_ne h7)]

/-- the output array is as the region left it, -/
theorem Wend_v7 (c : Dev nD) : Wend m c (Proc.devRef .tc main_v7) = (dats m 0 c).arrAt 2 cfg0.N := by
  simp only [Wend, hostOps1, StableHlo.after_cons, StableHlo.after_nil]
  rw [StableHlo.unary_result_ne (h := (by decide : main_v7 ≠ main_v8))]
  unfold Wexit
  rw [Function.update_self]

/-- and the result is the output array with a leading unit axis. -/
theorem Wend_v8 (c : Dev nD) : Wend m c (Proc.devRef .tc main_v8)
    = broadcastInDim S1x8x4096x4096 ![1, 2, 3] bcast_S8x4096x4096_S1x8x4096x4096_1_2_3 ((dats m 0 c).arrAt 2 cfg0.N) := by
  simp only [Wend, hostOps1, StableHlo.after_cons, StableHlo.after_nil]
  rw [StableHlo.unary_result']
  unfold Wexit
  rw [Function.update_self]

/-- What is read at the end beside the pipeline's arrays: the two argument arrays and the result. -/
abbrev endRefs : Finset (Ref sig .tc) := {main_arg0, main_arg1, main_v8}

/-- Those three buffers, whole, at their contents when @main returns. -/
def Zend (c : Dev nD) : sProp 𝕄 :=
  bigSep endRefs fun b => ((c.tc : Thread nD τ).loc b) ↦{fullShare} Wend m c (Proc.devRef .tc b)

/-- One by one: the argument arrays as the region found them, the result as the host operation leaves it. -/
theorem Zend_eq (c : Dev nD) : (Zend m c : sProp 𝕄)
    = iprop((((c.tc : Thread nD τ).loc main_arg0) ↦{fullShare} V m c main_arg0) ∗ (((c.tc : Thread nD τ).loc main_arg1) ↦{fullShare} V m c main_arg1)
        ∗ (((c.tc : Thread nD τ).loc main_v8) ↦{fullShare} Wend m c (Proc.devRef .tc main_v8))) := by
  unfold Zend
  rw [bigSep_insert (by decide : main_arg0 ∉ ({main_arg1, main_v8} : Finset (Ref sig .tc))),
    bigSep_insert (by decide : main_arg1 ∉ ({main_v8} : Finset (Ref sig .tc))), bigSep_singleton,
    Wend_of_ne m c main_arg0 (by decide) (by decide), Wend_of_ne m c main_arg1 (by decide) (by decide)]
  rfl

/-- The host operation after the region touches the output array and the result buffer only. -/
abbrev tailRefs2 : Finset (DevRef τ sig) := {Proc.devRef .tc main_v7, Proc.devRef .tc main_v8}

theorem tail_sub : ∀ ops ∈ ([hostOps1] : List (List (HloOp τ sig (Elt F)))), ∀ op ∈ ops, op.bufs ⊆ tailRefs2 := by
  intro ops hops op hop
  simp only [List.mem_cons, List.mem_nil_iff, or_false] at hops
  subst hops
  simp only [hostOps1, List.mem_cons, List.mem_nil_iff, or_false] at hop
  subst hop
  intro b hb
  exact hb

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

-- a rule stated for any thread, applied at the TensorCore thread
set_option backward.isDefEq.respectTransparency.types false in
/-- THE LINE AFTER THE REGION: from the region's exit — the arrays at their final contents, the bypassing buffers
    as the region found them — the host operation runs holding the output array and the result buffer, and hands
    back the arrays as they were and the three buffers read at the end. -/
theorem tail_run (𝒱₀ : Variants) (c : Dev nD) (Q' : PUnit → sProp 𝕄) :
    iprop((iprop((dats m 0 c).arrays ((dats m 0 c).arrAt · cfg0.N) ∗ Zend m c) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => Cfg.toPCfg (Val := Elt F) (cfgs q)) defs₀) (Variants.lift 𝒱₀) (c.tc : Thread nD τ) none) Set.univ
          (Pipeline.chain [StableHlo.seq hostOps1]) Q' := by
  have hW : (StableHlo.held (c.tc : Thread nD τ) tailRefs2 (Wexit m c) : sProp 𝕄)
      = iprop((((c.tc : Thread nD τ).loc main_v7) ↦{fullShare} (dats m 0 c).arrAt 2 cfg0.N)
          ∗ (((c.tc : Thread nD τ).loc main_v8) ↦{fullShare} V m c main_v8)) := by
    unfold StableHlo.held
    rw [bigSep_insert (by decide : (Proc.devRef .tc main_v7 : DevRef τ sig) ∉ ({Proc.devRef .tc main_v8} : Finset (DevRef τ sig))), bigSep_singleton]
    unfold Wexit
    rw [Function.update_self, Function.update_of_ne (by decide : (Proc.devRef .tc main_v8 : DevRef τ sig) ≠ Proc.devRef .tc main_v7)]
    rfl
  have hW' : (StableHlo.held (c.tc : Thread nD τ) tailRefs2 (StableHlo.after ([hostOps1] : List (List (HloOp τ sig (Elt F)))).flatten (Wexit m c)) : sProp 𝕄)
      = iprop((((c.tc : Thread nD τ).loc main_v7) ↦{fullShare} (dats m 0 c).arrAt 2 cfg0.N)
          ∗ (((c.tc : Thread nD τ).loc main_v8) ↦{fullShare} Wend m c (Proc.devRef .tc main_v8))) := by
    unfold StableHlo.held
    rw [bigSep_insert (by decide : (Proc.devRef .tc main_v7 : DevRef τ sig) ∉ ({Proc.devRef .tc main_v8} : Finset (DevRef τ sig))), bigSep_singleton]
    rw [show StableHlo.after ([hostOps1] : List (List (HloOp τ sig (Elt F)))).flatten (Wexit m c) = Wend m c from rfl, Wend_v7]
    rfl
  rw [arrays_eq3, unscopedRest0_eq, Zend_eq, show Pipeline.chain [StableHlo.seq (hostOps1 (F := F))]
      = Pipeline.chain (([hostOps1] : List (List (HloOp τ sig (Elt F)))).map StableHlo.seq ++ []) from rfl]
  iintro ⟨Hk, Hb, ⟨H6l, H6r, H7⟩, Ha0, Ha1, -, -, -, -, -, -, -, -, Hv8⟩
  iapply (Pipeline.wp_seqs_then (fun q => Cfg.toPCfg (Val := Elt F) (cfgs q)) defs₀ 𝒱₀ c tailRefs2 [] [hostOps1] tail_sub tail_fresh (Wexit m c)) $$ [Hb H7 Hv8]
  · rw [hW]
    isplitl [Hb]; · iexact Hb
    isplitl [H7]; · iexact H7
    iexact Hv8
  iintro Hb
  rw [Pipeline.chain_nil, wp_pure, hW']
  imodintro
  iapply Hk
  icases Hb with ⟨-, H7, Hv8⟩
  isplitl [H6l H6r H7]
  · isplitl [H6l]; · iexact H6l
    isplitl [H6r]; · iexact H6r
    iexact H7
  isplitl [Ha0]; · iexact Ha0
  isplitl [Ha1]; · iexact Ha1
  iexact Hv8

/-! ## The run -/

/-- What every final state satisfies: each array of the pipeline at what the write-backs of all 128 points leave,
    and the two argument arrays and the result at their contents when @main returns. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ endRefs, r.2.mem ((c.tc : Thread nD τ).loc b) = Wend m c (Proc.devRef .tc b)

set_option backward.isDefEq.respectTransparency.types false in
/-- From any memory with zero counters every weakly fair execution of @main terminates, without a fault, in a
    state satisfying `RunPost`. -/
theorem run_main : θ_run defs (onTc (τ := τ) (main (F := F))) (s₀ m ρ) (RunPost m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := entry_split m) (hpf := fun _ k => k.elim0)
    (X := fun _ => iprop(emp)) (Y := fun _ => iprop(emp)) (Z := fun c => Pipeline.unscopedRest spec0 c (V m c)) (Z' := Zend m)
    (hX := fun c => by
      rw [Pipeline.unscopedRestP_none]
      iintro H; isplitr; · iempintro
      iexact H)
    (hin := fun c => (show _ ⊢ Pipeline.scopedRest spec0 c from by
      iintro ⟨-, -, H⟩; iexact H))
    (hout := fun c => (show Pipeline.scopedRest spec0 c ⊢ iprop(emp ∗ Pipeline.scopedRest spec0 c) from by
      iintro H; isplitr; · iempintro
      iexact H))
    (htail := fun c Q' => tail_run m Variants.none c Q')
    (QY := fun c s => ∀ b ∈ endRefs, s.mem ((c.tc : Thread nD τ).loc b) = Wend m c (Proc.devRef .tc b))
    (hY := fun c s' => by
      unfold Zend
      iintro ⟨-, HZ, HSI⟩
      imodintro
      iapply (pointsTo_read_all endRefs (fun b => (c.tc : Thread nD τ).loc b) (fun b => Wend m c (Proc.devRef .tc b)) s')
      isplitl [HZ] <;> iassumption)
    (hQ := fun s h c => ⟨(h c).1, (h c).2.2⟩)

/-! ## The frame -/

/-- No host operation before the region writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- THE FRAME: every weakly fair execution of @main terminates, nothing faults, and the two argument arrays end as
    launched — they bypass the region, and neither the host operations before it nor the one after it writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans ((Wend_of_ne m c main_arg0 (by decide) (by decide)).trans (V_main_arg0 m c)),
     ((h c).2 main_arg1 (by decide)).trans ((Wend_of_ne m c main_arg1 (by decide) (by decide)).trans (V_main_arg1 m c))⟩) (run_main m ρ)

end Cert.KernelIdeal.Frm

end
-- ==== Proof.KiTable.lean ====
/-
  The table the region reads. Before the call @main wraps negative sequence ids (an id below zero has four added),
  lays them out as a column of start indices and gathers rows of the 4 × 4 base table: `one_hot`, a
  [4096, 4] array whose row `r` is the base table's row at the (wrapped) id of position `r`. Nothing here opens
  the gather: it is carried as one function of the two arguments.
-/
import proofs.«149057_j30923764532139_1_alg».proof.Proof.KiBody
import Idealize.ShloMosaic.Lib.StableHlo.Run

noncomputable section

namespace Cert.KernelIdeal.Frm

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

/-- The index chain and the gather, as one function of the sequence ids and the base table. -/
def oneHot (ids : (⟨S4096, .i32⟩ : BufTy).Contents (Elt F)) (tbl : (⟨S4x4, .f32⟩ : BufTy).Contents (Elt F)) :
    (⟨S4096x4, .f32⟩ : BufTy).Contents (Elt F) :=
  Host.gather gather_S4x4_S4096x1_S4096x4_1_0_n_n_0_1_14 tbl
    (broadcastInDim S4096x1 ![0] bcast_S4096_S4096x1_0
      (select (cmpi .slt ids (broadcastInDim S4096 ![] bcast_S_S4096 (constantI S_ 32 0#32)))
        (addi ids (broadcastInDim S4096 ![] bcast_S_S4096 (constantI S_ 32 4#32))) ids))

/-- The region finds the table at that function of the launch contents of the two arguments. -/
theorem V_main_v6 (c : Dev nD) :
    V m c main_v6 = oneHot (m ((c : Thread nD τ).loc main_arg0)) (m ((c : Thread nD τ).loc main_arg1)) := by
  show StableHlo.after hostOps0 (fun b => m (c, b)) (Proc.devRef .tc main_v6) = _
  unfold oneHot
  after_results

end Cert.KernelIdeal.Frm

end
-- ==== Proof.Spec.lean ====
/-
  What both programs compute from the gathered table. With `tab : [4096, 4]` (row `r` the one-hot code of base `r`
  of the sequence), the result pairs every two positions:

      out[ch, i, j] = tab[i, ch]        for channels ch = 0 … 3   (the code of position i)
      out[ch, i, j] = tab[j, ch - 4]    for channels ch = 4 … 7   (the code of position j)

  No arithmetic is done on the entries, so the function is stated over any element type.
-/
import Idealize.ShloMosaic.PureOps.Ideal
import Idealize.ShloMosaic.Lib.ValueIdx

noncomputable section

namespace Cert.Spec

open Idealize.ShloMosaic Idealize.ShloMosaic.ValueIdx

abbrev T4096x4 : Shape := ⟨2, ![4096, 4]⟩
abbrev T8x4096x4096 : Shape := ⟨3, ![8, 4096, 4096]⟩

/-- The channel-major pairing of a table's rows: channel `ch < 4` of entry `(i, j)` is column `ch` of row `i`,
    channel `ch ≥ 4` is column `ch - 4` of row `j`. -/
def pairEmbed {α : Type} (tab : T4096x4.Idx → α) : T8x4096x4096.Idx → α := fun y =>
  if h : (y 0).val < 4 then tab (ix2 (n0 := 4096) (n1 := 4) (y 1) ⟨(y 0).val, h⟩)
  else tab (ix2 (n0 := 4096) (n1 := 4) (y 2) ⟨(y 0).val - 4, by have h8 : (y 0).val < 8 := (y 0).isLt; omega⟩)

/-- On the first four channels it reads row `i`. -/
theorem pairEmbed_lo {α : Type} (tab : T4096x4.Idx → α) (ch : Fin 8) (i j : Fin 4096) (h : ch.val < 4) :
    pairEmbed tab (ix3 ch i j) = tab (ix2 i ⟨ch.val, h⟩) := by
  unfold pairEmbed; rw [dif_pos (show ((ix3 ch i j : T8x4096x4096.Idx) 0).val < 4 from h)]

/-- On the last four channels it reads row `j`. -/
theorem pairEmbed_hi {α : Type} (tab : T4096x4.Idx → α) (ch : Fin 8) (i j : Fin 4096) (h : ¬ ch.val < 4) :
    pairEmbed tab (ix3 ch i j) = tab (ix2 j ⟨ch.val - 4, by have := ch.isLt; omega⟩) := by
  unfold pairEmbed; rw [dif_neg (show ¬ ((ix3 ch i j : T8x4096x4096.Idx) 0).val < 4 from h)]

end Cert.Spec

end
-- ==== Proof.KiValue.lean ====
/-
  What the output array holds once the whole 16 × 8 grid has run.

  At grid point (i, j) the body leaves in the 8 × 256 × 512 output block, on channels 0–3, the transposed row
  block (rows 256·i … of the table) repeated along the last axis, and on channels 4–7 the transposed column block
  (rows 512·j … of the SAME table) repeated along the middle axis. Entry (ch, r, l) of the block is therefore
  entry (r, ch) of the row block for ch < 4 and entry (l, ch − 4) of the column block for ch ≥ 4. The block sits
  in the array at rows 256·i … and columns 512·j …, the row block at rows 256·i … of the table and the column
  block at rows 512·j …; so the block is the restriction of ONE function of the table, the channel-major pairing
  of its rows, and the 128 blocks tile the 8 × 4096 × 4096 array.
-/
import proofs.«149057_j30923764532139_1_alg».proof.Proof.KiBody
import proofs.«149057_j30923764532139_1_alg».proof.Proof.Spec
import Idealize.ShloMosaic.Lib.Pipeline.Value
import Idealize.ShloMosaic.Lib.ValueIdx

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-! ## The two payloads at an index -/

/-- The row payload: transposing the 256 × 4 block and repeating it along the last axis, entry (ch, r, l) is
    entry (r, ch) of the block, whatever l. -/
theorem pay1_apply (x : Vec F S256x4 .f32) (ch : Fin 4) (r : Fin 256) (l : Fin 512) :
    k0_pay1 x (ix3 ch r l) = x (ix2 r ch) := by
  show broadcastTo S4x256x512 (shapeCast S4x256x1 (shapeCast S4x256x1 (transpose S4x256 [1, 0]
      (shapeCast S256x4 x shapeCasts_S256x4_S256x4) transposes_S256x4_p1_0_S4x256) shapeCasts_S4x256_S4x256x1)
      shapeCasts_S4x256x1_S4x256x1) broadcasts_S4x256x1_S4x256x512 (ix3 ch r l) = x (ix2 r ch)
  rw [shapeCast_self, shapeCast_self]
  -- the repetition along the last axis: (ch, r, l) of [4, 256, 512] reads (ch, r, 0) of [4, 256, 1]
  refine (broadcastTo_apply _ _ (ix3 ch r l) (ix3 ch r (0 : Fin 1)) (fun a => match a with
    | ⟨0, _⟩ => by show ch.val = if (4 : Nat) = 1 then 0 else ch.val; rfl
    | ⟨1, _⟩ => by show r.val = if (256 : Nat) = 1 then 0 else r.val; rfl
    | ⟨2, _⟩ => by show (0 : Nat) = if (1 : Nat) = 1 then 0 else l.val; rfl)).trans ?_
  -- the added unit axis: (ch, r, 0) of [4, 256, 1] is at the row-major position of (ch, r) of [4, 256]
  refine (shapeCast_apply _ _ (ix3 ch r (0 : Fin 1)) (ix2 ch r)
    (by rw [Shape.rowMajor_val_two, Shape.rowMajor_val_three]
        show ch.val * 256 + r.val = (ch.val * 256 + r.val) * 1 + 0
        omega)).trans ?_
  -- the transpose: (ch, r) of [4, 256] reads (r, ch) of [256, 4]
  exact transpose_apply _ _ _ (ix2 ch r) (ix2 r ch) (fun b => match b with | ⟨0, _⟩ => rfl | ⟨1, _⟩ => rfl)

/-- The column payload: transposing the 512 × 4 block and repeating it along the middle axis, entry (ch, r, l) is
    entry (l, ch) of the block, whatever r. -/
theorem pay2_apply (x : Vec F S512x4 .f32) (ch : Fin 4) (r : Fin 256) (l : Fin 512) :
    k0_pay2 x (ix3 ch r l) = x (ix2 l ch) := by
  show broadcastTo S4x256x512 (shapeCast S4x1x512 (shapeCast S4x1x512 (transpose S4x512 [1, 0]
      (shapeCast S512x4 x shapeCasts_S512x4_S512x4) transposes_S512x4_p1_0_S4x512) shapeCasts_S4x512_S4x1x512)
      shapeCasts_S4x1x512_S4x1x512) broadcasts_S4x1x512_S4x256x512 (ix3 ch r l) = x (ix2 l ch)
  rw [shapeCast_self, shapeCast_self]
  -- the repetition along the middle axis: (ch, r, l) of [4, 256, 512] reads (ch, 0, l) of [4, 1, 512]
  refine (broadcastTo_apply _ _ (ix3 ch r l) (ix3 ch (0 : Fin 1) l) (fun a => match a with
    | ⟨0, _⟩ => by show ch.val = if (4 : Nat) = 1 then 0 else ch.val; rfl
    | ⟨1, _⟩ => by show (0 : Nat) = if (1 : Nat) = 1 then 0 else r.val; rfl
    | ⟨2, _⟩ => by show l.val = if (512 : Nat) = 1 then 0 else l.val; rfl)).trans ?_
  -- the added unit axis: (ch, 0, l) of [4, 1, 512] is at the row-major position of (ch, l) of [4, 512]
  refine (shapeCast_apply _ _ (ix3 ch (0 : Fin 1) l) (ix2 ch l)
    (by rw [Shape.rowMajor_val_two, Shape.rowMajor_val_three]
        show ch.val * 512 + l.val = (ch.val * 1 + 0) * 512 + l.val
        omega)).trans ?_
  -- the transpose: (ch, l) of [4, 512] reads (l, ch) of [512, 4]
  exact transpose_apply _ _ _ (ix2 ch l) (ix2 l ch) (fun b => match b with | ⟨0, _⟩ => rfl | ⟨1, _⟩ => rfl)

/-! ## The output block at an index -/

theorem zeros2 : (![0, 0] : Fin 2 → Nat) = fun _ => 0 := funext fun a => by fin_cases a <;> rfl

/-- The channel-major pairing of a row block and a column block: on channels 0–3 entry (ch, r, l) is entry (r, ch)
    of the row block, on channels 4–7 it is entry (l, ch − 4) of the column block. -/
def blkPair {α : Type} (x0 : S256x4.Idx → α) (x1 : S512x4.Idx → α) : S8x256x512.Idx → α := fun y =>
  if h : (y 0).val < 4 then x0 (ix2 (n0 := 256) (n1 := 4) (y 1) ⟨(y 0).val, h⟩)
  else x1 (ix2 (n0 := 512) (n1 := 4) (y 2) ⟨(y 0).val - 4, by have h8 : (y 0).val < 8 := (y 0).isLt; omega⟩)

theorem blkPair_lo {α : Type} (x0 : S256x4.Idx → α) (x1 : S512x4.Idx → α) (ch : Fin 8) (r : Fin 256) (l : Fin 512)
    (h : ch.val < 4) : blkPair x0 x1 (ix3 ch r l) = x0 (ix2 r ⟨ch.val, h⟩) := by
  unfold blkPair; rw [dif_pos (show ((ix3 ch r l : S8x256x512.Idx) 0).val < 4 from h)]

theorem blkPair_hi {α : Type} (x0 : S256x4.Idx → α) (x1 : S512x4.Idx → α) (ch : Fin 8) (r : Fin 256) (l : Fin 512)
    (h : ¬ ch.val < 4) : blkPair x0 x1 (ix3 ch r l) = x1 (ix2 l ⟨ch.val - 4, by have := ch.isLt; omega⟩) := by
  unfold blkPair; rw [dif_neg (show ¬ ((ix3 ch r l : S8x256x512.Idx) 0).val < 4 from h)]

/-- What the body leaves in the output block is the pairing of the two input blocks: each store's payload is the
    pairing read under its rectangle, and the two rectangles tile the block. -/
theorem outBlk_eq (x0 : Vec F S256x4 .f32) (x1 : Vec F S512x4 .f32) : outBlk x0 x1 = blkPair x0 x1 := by
  funext y
  unfold outBlk
  rw [View.ld_unit_zero (S := S256x4) zeros2, View.ld_unit_zero (S := S512x4) zeros2]
  refine View.canon_apply_of_pieces (blkPair x0 x1) _ ?_ y (outBlk_cover _ _ y)
  intro pc hpc x
  rcases List.mem_cons.mp hpc with rfl | hpc
  · -- channels 4–7: the rectangle starts at channel 4
    obtain ⟨ch, r, l, rfl⟩ : ∃ (ch : Fin 4) (r : Fin 256) (l : Fin 512), x = ix3 ch r l := ⟨x 0, x 1, x 2, eq_ix3 x⟩
    show k0_pay2 x1 (ix3 ch r l) = blkPair x0 x1 (rHi.emb (ix3 ch r l))
    have hy : (rHi.emb (ix3 ch r l) : S8x256x512.Idx) = ix3 ⟨4 + ch.val, by have := ch.isLt; omega⟩ r l := by
      funext a
      match a with
      | ⟨0, _⟩ => apply Fin.ext; show 4 + 1 * ch.val = 4 + ch.val; omega
      | ⟨1, _⟩ => apply Fin.ext; show 0 + 1 * r.val = r.val; omega
      | ⟨2, _⟩ => apply Fin.ext; show 0 + 1 * l.val = l.val; omega
    rw [hy, pay2_apply, blkPair_hi _ _ _ _ _ (show ¬ 4 + ch.val < 4 by omega)]
    exact congrArg x1 (congrArg (ix2 l) (Fin.ext (show ch.val = 4 + ch.val - 4 by omega)))
  rcases List.mem_cons.mp hpc with rfl | hpc
  · -- channels 0–3: the rectangle starts at the origin
    obtain ⟨ch, r, l, rfl⟩ : ∃ (ch : Fin 4) (r : Fin 256) (l : Fin 512), x = ix3 ch r l := ⟨x 0, x 1, x 2, eq_ix3 x⟩
    show k0_pay1 x0 (ix3 ch r l) = blkPair x0 x1 (rLo.emb (ix3 ch r l))
    have hy : (rLo.emb (ix3 ch r l) : S8x256x512.Idx) = ix3 ⟨ch.val, by have := ch.isLt; omega⟩ r l := by
      funext a
      match a with
      | ⟨0, _⟩ => apply Fin.ext; show 0 + 1 * ch.val = ch.val; omega
      | ⟨1, _⟩ => apply Fin.ext; show 0 + 1 * r.val = r.val; omega
      | ⟨2, _⟩ => apply Fin.ext; show 0 + 1 * l.val = l.val; omega
    rw [hy, pay1_apply, blkPair_lo _ _ _ _ _ (show ch.val < 4 from ch.isLt)]
  nomatch hpc

/-! ## Where the blocks sit -/

/-- The index maps, decided over the 128 points: point t = 8·i + j has its row block at block row i of the table,
    its column block at block row j of the table, and its output block at block (0, i, j) of the array. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 3) = 0 ∧ win0_2.index t (1 : Fin 3) = t.val / 8 ∧ win0_2.index t (2 : Fin 3) = t.val % 8 :=
  (by decide +kernel : ∀ t : Fin grid0.N, _)

/-- Every pair (i, j) is a point of the grid: the point 8·i + j. -/
theorem exists_point (i : Fin 16) (j : Fin 8) : ∃ t : Fin cfg0.N, t.val = 8 * i.val + j.val :=
  ⟨⟨8 * i.val + j.val, by rw [show cfg0.N = 128 from N_0]; have := i.isLt; have := j.isLt; omega⟩, rfl⟩

/-- The row block at point t is rows 256·(t / 8) … of the table: its entry x is the table's entry k whenever k's row
    is 256·(t / 8) plus x's row and the columns agree. -/
theorem iblk0_apply (c : Dev nD) (t : Fin cfg0.N) (x : S256x4.Idx) (k : S4096x4.Idx)
    (hk0 : (k 0).val = 256 * (t.val / 8) + (x 0).val) (hk1 : (k 1).val = (x 1).val) :
    (iblk m c 0 t : Vec F S256x4 .f32) x = (V m c main_v6 : S4096x4.Idx → Elt F .f32) k := by
  obtain ⟨e0, e1, -⟩ := idx_facts t
  unfold iblk
  rw [View.read_apply]
  show (V m c main_v6 : S4096x4.Idx → Elt F .f32) (((cfg0.win 0).blk t).view.emb x) = _
  refine congrArg (V m c main_v6 : S4096x4.Idx → Elt F .f32) (funext fun a => Fin.ext ?_)
  match a with
  | ⟨0, _⟩ => show win0_0.index t (0 : Fin 2) * 256 + 1 * (x 0).val = (k 0).val; rw [e0, hk0]; omega
  | ⟨1, _⟩ => show win0_0.index t (1 : Fin 2) * 4 + 1 * (x 1).val = (k 1).val; rw [e1, hk1]; omega

/-- The column block at point t is rows 512·(t % 8) … of the table. -/
theorem iblk1_apply (c : Dev nD) (t : Fin cfg0.N) (x : S512x4.Idx) (k : S4096x4.Idx)
    (hk0 : (k 0).val = 512 * (t.val % 8) + (x 0).val) (hk1 : (k 1).val = (x 1).val) :
    (iblk m c 1 t : Vec F S512x4 .f32) x = (V m c main_v6 : S4096x4.Idx → Elt F .f32) k := by
  obtain ⟨-, -, e2, e3, -⟩ := idx_facts t
  unfold iblk
  rw [View.read_apply]
  show (V m c main_v6 : S4096x4.Idx → Elt F .f32) (((cfg0.win 1).blk t).view.emb x) = _
  refine congrArg (V m c main_v6 : S4096x4.Idx → Elt F .f32) (funext fun a => Fin.ext ?_)
  match a with
  | ⟨0, _⟩ => show win0_1.index t (0 : Fin 2) * 512 + 1 * (x 0).val = (k 0).val; rw [e2, hk0]; omega
  | ⟨1, _⟩ => show win0_1.index t (1 : Fin 2) * 4 + 1 * (x 1).val = (k 1).val; rw [e3, hk1]; omega

/-! ## What a point writes back -/

/-- The pairing of the table's rows on the first four channels, -/
theorem pairEmbed_of_lt {α : Type} (tab : S4096x4.Idx → α) (y : S8x4096x4096.Idx) (h : (y 0).val < 4) :
    Cert.Spec.pairEmbed tab y = tab (ix2 (n0 := 4096) (n1 := 4) (y 1) ⟨(y 0).val, h⟩) := by
  unfold Cert.Spec.pairEmbed; rw [dif_pos h]
/-- and on the last four. -/
theorem pairEmbed_of_not_lt {α : Type} (tab : S4096x4.Idx → α) (y : S8x4096x4096.Idx) (h : ¬ (y 0).val < 4) :
    Cert.Spec.pairEmbed tab y
      = tab (ix2 (n0 := 4096) (n1 := 4) (y 2) ⟨(y 0).val - 4, by have h8 : (y 0).val < 8 := (y 0).isLt; omega⟩) := by
  unfold Cert.Spec.pairEmbed; rw [dif_neg h]

/-- WHAT POINT t WRITES BACK is its block of the pairing of the table's rows: entry (ch, r, l) of the block sits at
    (ch, 256·(t / 8) + r, 512·(t % 8) + l) of the array, and the row block and the column block are read at exactly
    those rows of the table. -/
theorem flushed_eq (c : Dev nD) (t : Fin cfg0.N) :
    (dats m 0 c).flushed 2 t
      = ((cfg0.win 2).blk t).view.read (Elt F) (Cert.Spec.pairEmbed (V m c main_v6 : S4096x4.Idx → Elt F .f32)) := by
  show (cfg0.win 2).cut (grid0.coords t) ((dats m 0 c).after 2 t) = _
  rw [after2, outBlk_eq]
  obtain ⟨-, -, -, -, e4, e5, e6⟩ := idx_facts t
  funext y
  obtain ⟨ch, r, l, rfl⟩ : ∃ (ch : Fin 8) (r : Fin 256) (l : Fin 512), y = ix3 ch r l := ⟨y 0, y 1, y 2, eq_ix3 y⟩
  show blkPair (iblk m c 0 t) (iblk m c 1 t) (ix3 ch r l)
    = Cert.Spec.pairEmbed (V m c main_v6 : S4096x4.Idx → Elt F .f32) (((cfg0.win 2).blk t).view.emb (ix3 ch r l))
  have hE0 : ((((cfg0.win 2).blk t).view.emb (ix3 ch r l) : S8x4096x4096.Idx) 0).val = ch.val := by
    show win0_2.index t (0 : Fin 3) * 8 + 1 * ch.val = ch.val; rw [e4]; omega
  have hE1 : ((((cfg0.win 2).blk t).view.emb (ix3 ch r l) : S8x4096x4096.Idx) 1).val = 256 * (t.val / 8) + r.val := by
    show win0_2.index t (1 : Fin 3) * 256 + 1 * r.val = 256 * (t.val / 8) + r.val; rw [e5]; omega
  have hE2 : ((((cfg0.win 2).blk t).view.emb (ix3 ch r l) : S8x4096x4096.Idx) 2).val = 512 * (t.val % 8) + l.val := by
    show win0_2.index t (2 : Fin 3) * 512 + 1 * l.val = 512 * (t.val % 8) + l.val; rw [e6]; omega
  by_cases h : ch.val < 4
  · have hlt : ((((cfg0.win 2).blk t).view.emb (ix3 ch r l) : S8x4096x4096.Idx) 0).val < 4 := by rw [hE0]; exact h
    refine (blkPair_lo _ _ ch r l h).trans (Eq.trans ?_ (pairEmbed_of_lt _ _ hlt).symm)
    exact iblk0_apply m c t _ _ hE1 hE0
  · have hge : ¬ ((((cfg0.win 2).blk t).view.emb (ix3 ch r l) : S8x4096x4096.Idx) 0).val < 4 := by rw [hE0]; exact h
    refine (blkPair_hi _ _ ch r l h).trans (Eq.trans ?_ (pairEmbed_of_not_lt _ _ hge).symm)
    refine iblk1_apply m c t _ _ hE2 ?_
    show (((cfg0.win 2).blk t).view.emb (ix3 ch r l) 0).val - 4 = ch.val - 4
    rw [hE0]

/-! ## The blocks tile the array -/

/-- An index of the array is in point t's block iff each coordinate is in the block's range on its axis. -/
theorem mem_blk2 (t : Fin cfg0.N) (i : S8x4096x4096.Idx) :
    i ∈ ((cfg0.win 2).blk t).view.set ↔ ∀ a : Fin 3, win0_2.index t a * S8x256x512.size a ≤ (i a).val
      ∧ (i a).val < win0_2.index t a * S8x256x512.size a + S8x256x512.size a := by
  show i ∈ ((View.whole main_v7).slice (win0_2.rect t)).set ↔ _
  rw [View.set_slice_whole, Rect.mem_set_unit]
  exact Iff.rfl

/-- Entry (ch, r, l) of the array is in the block of the point 8·(r / 256) + l / 512, and every point writes back. -/
theorem covered (i : S8x4096x4096.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 4096 := (i 2).isLt
  obtain ⟨t, ht⟩ := exists_point ⟨(i 1).val / 256, by omega⟩ ⟨(i 2).val / 512, by omega⟩
  have ht' : t.val = 8 * ((i 1).val / 256) + (i 2).val / 512 := ht
  obtain ⟨-, -, -, -, e4, e5, e6⟩ := idx_facts t
  refine ⟨t, flush0_2 t, ?_⟩
  rw [mem_blk2]
  intro a
  match a with
  | ⟨0, _⟩ =>
    show win0_2.index t (0 : Fin 3) * 8 ≤ (i 0).val ∧ (i 0).val < win0_2.index t (0 : Fin 3) * 8 + 8
    rw [e4]; omega
  | ⟨1, _⟩ =>
    show win0_2.index t (1 : Fin 3) * 256 ≤ (i 1).val ∧ (i 1).val < win0_2.index t (1 : Fin 3) * 256 + 256
    rw [e5]; omega
  | ⟨2, _⟩ =>
    show win0_2.index t (2 : Fin 3) * 512 ≤ (i 2).val ∧ (i 2).val < win0_2.index t (2 : Fin 3) * 512 + 512
    rw [e6]; omega

/-! ## The array after the run -/

/-- THE OUTPUT ARRAY after the whole grid has run is the channel-major pairing of the rows of the table as the region
    finds it: every point writes its block of that one function, and the blocks cover the array. -/
theorem arrAt_out (c : Dev nD) :
    ((dats (F := F) m 0 c).arrAt 2 cfg0.N : S8x4096x4096.Idx → Elt F .f32)
      = Cert.Spec.pairEmbed (V m c main_v6 : S4096x4.Idx → Elt F .f32) :=
  (dats m 0 c).arrAt_eq_of_cover 2 (Cert.Spec.pairEmbed (V m c main_v6 : S4096x4.Idx → Elt F .f32))
    (fun t _ => flushed_eq m c t) covered

end Cert.KernelIdeal.Frm

end
-- ==== Proof.KiResult.lean ====
/-
  What the idealized kernel's @main returns: the channel-major pairing of the gathered table, with a leading unit
  axis. The output array after the whole grid is the pairing (every grid point writes its own 8 × 256 × 512 block
  of it); the host operation after the call adds the unit axis.
-/
import proofs.«149057_j30923764532139_1_alg».proof.Proof.KiLaunch
import proofs.«149057_j30923764532139_1_alg».proof.Proof.KiTable
import proofs.«149057_j30923764532139_1_alg».proof.Proof.KiValue

noncomputable section

namespace Cert.KernelIdeal.Frm

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The program's result as one function of the sequence ids and the base table. -/
def result (ids : (⟨S4096, .i32⟩ : BufTy).Contents (Elt F)) (tbl : (⟨S4x4, .f32⟩ : BufTy).Contents (Elt F)) :
    (⟨S1x8x4096x4096, .f32⟩ : BufTy).Contents (Elt F) :=
  broadcastInDim S1x8x4096x4096 ![1, 2, 3] bcast_S8x4096x4096_S1x8x4096x4096_1_2_3
    (Cert.Spec.pairEmbed (oneHot ids tbl : S4096x4.Idx → Elt F .f32) : S8x4096x4096.Idx → Elt F .f32)

/-- When @main returns, the result buffer holds `result` of the arguments' launch contents. -/
theorem Wend_result (c : Dev nD) :
    Wend m c (Proc.devRef .tc main_v8) = result (m ((c : Thread nD τ).loc main_arg0)) (m ((c : Thread nD τ).loc main_arg1)) := by
  rw [Wend_v8, arrAt_out, V_main_v6]
  rfl

/-- THE VALUE RUN: every weakly fair execution of @main terminates with the result at `result` of the arguments and
    the arguments unchanged. -/
theorem run_value : θ_run defs (onTc (τ := τ) (main (F := F))) ⟨m, fun _ => 0, ρ⟩ (fun r => ∀ c : Dev nD,
      r.2.mem ((c.tc : Thread nD τ).loc main_v8) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (by decide)).trans (Wend_result m c),
     ((h c).2 main_arg0 (by decide)).trans ((Wend_of_ne m c main_arg0 (by decide) (by decide)).trans (V_main_arg0 m c)),
     ((h c).2 main_arg1 (by decide)).trans ((Wend_of_ne m c main_arg1 (by decide) (by decide)).trans (V_main_arg1 m c))⟩) (run_main m ρ)

end Cert.KernelIdeal.Frm

end
-- ==== Proof.RefValue.lean ====
/-
  The reference's result, read off its run: the gathered table paired channel-major (Spec.lean's `pairEmbed`),
  with a leading unit axis.
-/
import proofs.«149057_j30923764532139_1_alg».proof.Proof.Gen.ReferenceIdeal.Run
import proofs.«149057_j30923764532139_1_alg».proof.Proof.Gen.ReferenceIdeal.Read
import proofs.«149057_j30923764532139_1_alg».proof.Proof.Spec
import Idealize.ShloMosaic.Lib.ValueIdx
import Idealize.ShloMosaic.Lib.Pipeline.Value
import Idealize.ShloMosaic.Lib.ValueLayout

noncomputable section

namespace Cert.ReferenceIdeal.RefValue

open Idealize.ShloMosaic Idealize.ShloMosaic.ValueIdx Cert.ReferenceIdeal

variable {F : FTy → Type} [FloatOps F]

/-! ## The join of two [4096, 4096, 4] arrays along the last axis, at an index

The joined array has eight entries along its last axis: the first four are the first piece's, the last four the
second piece's, four further down. -/

/-- On a last coordinate below four the joined array reads the first piece at the same coordinates. -/
theorem join_lo {α : Type} (a b : S4096x4096x4.Idx → α)
    (h : Shape.Concatenates [S4096x4096x4, S4096x4096x4] S4096x4096x8 2)
    (i j : Fin 4096) (c : Fin 8) (hc : c.val < 4) :
    concatenate S4096x4096x8 2 [⟨S4096x4096x4, a⟩, ⟨S4096x4096x4, b⟩] h (ix3 i j c)
      = a (ix3 i j ⟨c.val, hc⟩) :=
  concatenate_pair_apply_left (2 : Fin 3) a b h (ix3 i j c) rfl (ix3 i j ⟨c.val, hc⟩)
    (fun d => match d with
      | ⟨0, _⟩ => rfl
      | ⟨1, _⟩ => rfl
      | ⟨2, _⟩ => rfl)

/-- On a last coordinate from four on the joined array reads the second piece, the last coordinate four less. -/
theorem join_hi {α : Type} (a b : S4096x4096x4.Idx → α)
    (h : Shape.Concatenates [S4096x4096x4, S4096x4096x4] S4096x4096x8 2)
    (i j : Fin 4096) (c : Fin 8) (hc : ¬ c.val < 4) :
    concatenate S4096x4096x8 2 [⟨S4096x4096x4, a⟩, ⟨S4096x4096x4, b⟩] h (ix3 i j c)
      = b (ix3 i j ⟨c.val - 4, by have := c.isLt; omega⟩) :=
  concatenate_pair_apply_right (2 : Fin 3) a b h (ix3 i j c) rfl rfl
    (ix3 i j ⟨c.val - 4, by have := c.isLt; omega⟩)
    (fun d hd => match d, hd with
      | ⟨0, _⟩, _ => rfl
      | ⟨1, _⟩, _ => rfl
      | ⟨2, _⟩, hd => absurd rfl hd)
    (by show (c.val - 4) + 4 = c.val; omega)

/-! ## The reference's paired array

Entry `(ch, i, j)` of the transposed array is entry `(i, j, ch)` of the joined one. Its first piece is the table
broadcast along the second axis (it reads row `i`), its second piece the table broadcast along the first axis (it
reads row `j`); the table itself (a gather) stays opaque. -/

/-- The reference's [8, 4096, 4096] array is the channel-major pairing of the gathered table. -/
theorem ref_pair (x0 : (⟨S4096, .i32⟩ : BufTy).Contents (Elt F)) (x1 : (⟨S4x4, .f32⟩ : BufTy).Contents (Elt F)) :
    (Cert.ReferenceIdeal.Read.val_main_v12 (F := F) x0 x1 : S8x4096x4096.Idx → Elt F .f32)
      = Cert.Spec.pairEmbed (Cert.ReferenceIdeal.Read.val_main_v6 (F := F) x0 x1 : S4096x4.Idx → Elt F .f32) := by
  funext y
  obtain ⟨ch, i, j, rfl⟩ : ∃ (ch : Fin 8) (i j : Fin 4096), y = ix3 ch i j := ⟨y 0, y 1, y 2, eq_ix3 y⟩
  rw [Read.val_main_v12_apply]
  have e : Read.idx_main_v12 (ix3 ch i j) = ix3 i j ch := funext fun a => match a with
    | ⟨0, _⟩ => rfl
    | ⟨1, _⟩ => rfl
    | ⟨2, _⟩ => rfl
  rw [e]
  unfold Read.val_main_v11
  by_cases hc : ch.val < 4
  · rw [Cert.Spec.pairEmbed_lo _ ch i j hc, join_lo _ _ _ i j ch hc, Read.val_main_v8_apply,
      Read.val_main_v7_apply]
    exact congrArg _ (funext fun a => match a with
      | ⟨0, _⟩ => rfl
      | ⟨1, _⟩ => rfl)
  · rw [Cert.Spec.pairEmbed_hi _ ch i j hc, join_hi _ _ _ i j ch hc, Read.val_main_v10_apply,
      Read.val_main_v9_apply]
    exact congrArg _ (funext fun a => match a with
      | ⟨0, _⟩ => rfl
      | ⟨1, _⟩ => rfl)

end Cert.ReferenceIdeal.RefValue

end
-- ==== Proof.lean ====
/-
  The certificate of the sequence-pair embedding kernel against its jnp reference.

  Both programs first gather the table `one_hot` — row `r` is the base table's row at the (wrapped) id of position
  `r` of the sequence — by the same nine host operations. The kernel then fills, block by block over a 16 × 8 grid,
  an [8, 4096, 4096] array whose entry (ch, i, j) is `one_hot[i, ch]` on channels 0–3 and `one_hot[j, ch - 4]` on
  channels 4–7; the reference builds the same array by two broadcasts, a join along the channel axis and a
  transpose. Both add a leading unit axis. No arithmetic is done on the entries, so the two results are the same
  function of the arguments at every element type, and the precondition is never opened.

  The frames: the kernel's two input windows read ONE array, so the region is entered with that array's share halved
  between them (Proof/KLaunch.lean, Proof/KiLaunch.lean); the reference has no kernel and its frame is its run.
  The idealization rewrote nothing: `preserves` is `True`.
-/
import proofs.«149057_j30923764532139_1_alg».proof.Defs
import proofs.«149057_j30923764532139_1_alg».proof.Proof.Gen.Kernel
import proofs.«149057_j30923764532139_1_alg».proof.Proof.Gen.KernelIdeal
import proofs.«149057_j30923764532139_1_alg».proof.Proof.Gen.ReferenceIdeal
import proofs.«149057_j30923764532139_1_alg».proof.Proof.Gen.Pre_finite_inputs
import proofs.«149057_j30923764532139_1_alg».proof.Proof.Gen.ReferenceIdeal.Run
import proofs.«149057_j30923764532139_1_alg».proof.Proof.Gen.ReferenceIdeal.Read
import proofs.«149057_j30923764532139_1_alg».proof.Proof.KLaunch
import proofs.«149057_j30923764532139_1_alg».proof.Proof.KiLaunch
import proofs.«149057_j30923764532139_1_alg».proof.Proof.KiResult
import proofs.«149057_j30923764532139_1_alg».proof.Proof.RefValue
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_kernel : Cert.frame_Kernel := fun m ρ _ => Cert.Kernel.Frm.frame m ρ

/-- So does the idealized kernel. -/
theorem frame_kernelIdeal : Cert.frame_KernelIdeal := fun m ρ _ => Cert.KernelIdeal.Frm.frame m ρ

/-- The reference is sixteen host operations in a line: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result term is the kernel's result function of the same arguments: its [8, 4096, 4096] array is
    the channel-major pairing of the gathered table (`ref_pair`), the table is the same nine operations' term, and
    both add the unit axis. -/
theorem reference_result (ids : (⟨Cert.ReferenceIdeal.S4096, .i32⟩ : BufTy).Contents (Elt Ideal))
    (tbl : (⟨Cert.ReferenceIdeal.S4x4, .f32⟩ : BufTy).Contents (Elt Ideal)) :
    Cert.ReferenceIdeal.Read.val_main_v13 (F := Ideal) ids tbl = Cert.KernelIdeal.Frm.result (F := Ideal) ids tbl := by
  unfold Cert.ReferenceIdeal.Read.val_main_v13 Cert.KernelIdeal.Frm.result
  rw [Cert.ReferenceIdeal.RefValue.ref_pair]
  rfl

/-- From memories agreeing on the arguments the two idealized programs end with equal results. -/
theorem algebraic : Cert.algebraic_KernelIdeal_ReferenceIdeal := by
  intro m ρ m' ρ' _ hagree
  refine ⟨_, Cert.KernelIdeal.Frm.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  exact reference_result _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
